-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4 : Shape := ⟨1, ![4]⟩
abbrev S32x16x4096 : Shape := ⟨3, ![32, 16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x16x4096 : S_.BroadcastsInDim S32x16x4096 (![] : Fin 0 → Fin S32x16x4096.rank)
  reducesTo_S32x16x4096_S_d0_1_2 : S32x16x4096.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4x2048x4096 .f32) (main_arg1 : IVec S4 32) (main_arg2 : FVec F S32x16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x16x4096 .f32 := Host.absf main_arg2
  let main_cst_0 : FVec F S_ .f32 := constant S_ .f32 0x7F800000#32
  let main_v5 : FVec F S32x16x4096 .f32 := broadcastInDim S32x16x4096 ![] bcast_S_S32x16x4096 main_cst_0
  let main_v6 : IVec S32x16x4096 1 := cmpf .olt main_v4 main_v5
  let main_c_1 : IVec S_ 1 := constantI S_ 1 1#1
  let main_v7 : IVec S_ 1 := (fun x v => Host.reduce IntOp.andi x v reducesTo_S32x16x4096_S_d0_1_2 h_S_) main_v6 main_c_1
  let main_v8 : IVec S_ 1 := andi main_v3 main_v7
  let main_c_2 : IVec S_ 32 := constantI S_ 32 0#32
  let main_v9 : IVec S4 32 := broadcastInDim S4 ![] bcast_S_S4 main_c_2
  let main_v10 : IVec S4 1 := cmpi .sge main_arg1 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v8 main_v11
  main_v12
-- ==== Kernel.lean ====
abbrev S4x2048x4096 : Shape := ⟨3, ![4, 2048, 4096]⟩
abbrev S4 : Shape := ⟨1, ![4]⟩
abbrev S32x16x4096 : Shape := ⟨3, ![32, 16, 4096]⟩
abbrev S_ : Shape := ⟨0, ![]⟩
abbrev S4x2048x16 : Shape := ⟨3, ![4, 2048, 16]⟩
abbrev S1x1024x4096 : Shape := ⟨3, ![1, 1024, 4096]⟩
abbrev S1x16x4096 : Shape := ⟨3, ![1, 16, 4096]⟩
abbrev S1 : Shape := ⟨1, ![1]⟩
abbrev S1x1024x16 : Shape := ⟨3, ![1, 1024, 16]⟩
abbrev S16x4096 : Shape := ⟨2, ![16, 4096]⟩
abbrev S1x512x4096 : Shape := ⟨3, ![1, 512, 4096]⟩
abbrev S512x4096 : Shape := ⟨2, ![512, 4096]⟩
abbrev S512x16 : Shape := ⟨2, ![512, 16]⟩
abbrev S1x512x16 : Shape := ⟨3, ![1, 512, 16]⟩

abbrev nBuf : Space → Nat
  | .hbm => 11
  | .vmem => 6
  | .smem => 1
  | _ => 0

abbrev bufTy : (tb : Table) → Fin (tcTables nBuf tb) → BufTy
  | .hbm, ⟨0, _⟩ => ⟨S4x2048x4096, .f32⟩
  | .hbm, ⟨1, _⟩ => ⟨S4, .i32⟩
  | .hbm, ⟨2, _⟩ => ⟨S32x16x4096, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4x2048x16, .f32⟩
  | .local _ .vmem, ⟨0, _⟩ => ⟨S1x1024x4096, .f32⟩
  | .local _ .vmem, ⟨1, _⟩ => ⟨S1x1024x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x1024x16, .f32⟩
  | .local _ .vmem, ⟨5, _⟩ => ⟨S1x1024x16, .f32⟩
  | .local _ .smem, ⟨0, _⟩ => ⟨S4, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c2_i32 : BitVec 32 := 2#32
  let v3 : BitVec 32 := Scalar.addi c0_i32 c2_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  v4
def k0_off2 (k0_t1 : Fin k0_t1_loop.trips) : Fin 3 → Nat :=
  let c0_3 : Index := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := v4
  let v6 : Index := Scalar.indexCast v5
  let c0_4 : Index := 0#32
  ![0, v6.toNat, 0]
def k0_off3 (k0_t1 : Fin k0_t1_loop.trips) : Fin 3 → Nat :=
  let c0_5 : Index := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := v4
  let v11 : Index := Scalar.indexCast v5
  let c0_6 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4 : S_.BroadcastsInDim S4 (![] : Fin 0 → Fin S4.rank)
  numel1_S1 : S1.numel = 1
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  bitsLt_bf16_f32 : FTy.bits .bf16 < FTy.bits .f32
  h_S1x512x4096 : 0 < S1x512x4096.numel
  shapeCasts_S1x512x4096_S512x4096 : S1x512x4096.ShapeCasts S512x4096
  h_S1x512x16 : 0 < S1x512x16.numel
  shapeCasts_S1x512x16_S512x16 : S1x512x16.ShapeCasts S512x16
  shapeCasts_S512x16_S1x512x16 : S512x16.ShapeCasts S1x512x16
  dot_S512x4096_S16x4096_S512x16_1_1_0_0_n_n_wf : DotDims.WF S512x4096 S16x4096 S512x16 [1] [1] [0] [0] [] []
  hrank0 : 0 < grid0.rank
  k0_off1_inb : ∀ i : grid0.Coords, ∀ a, (k0_off1 i) a + S1.size a ≤ S4.size a
  k0_t1_ok : k0_t1_loop.OK
  k0_mult1_dvd : ∀ k0_t1 : Fin k0_t1_loop.trips, 512 ∣ (k0_mult1 k0_t1).toNat
  k0_off2_inb : ∀ k0_t1 : Fin k0_t1_loop.trips, ∀ a, (k0_off2 k0_t1) a + S1x512x4096.size a ≤ S1x1024x4096.size a
  k0_off3_inb : ∀ k0_t1 : Fin k0_t1_loop.trips, ∀ a, (k0_off3 k0_t1) a + S1x512x16.size a ≤ S1x1024x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S4x2048x4096.size a
  hwx0_0 : ∀ i : grid0.Coords, EltTy.bits .f32 = 32 ∨ (Rect.block (s := S4x2048x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x16.size a ≤ S4x2048x16.size a
  hwx0_2 : ∀ i : grid0.Coords, EltTy.bits .f32 = 32 ∨ (Rect.block (s := S4x2048x16) S1x1024x16.size (cc0_transform_2 i) (hinb0_2 i)).WholeWords (EltTy.packing .f32)

variable [Facts₀]

def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf

abbrev spec0_0 : Pipeline.WinSpec sig grid0.rank :=
  Pipeline.WinSpec.ofSpec (Memref.whole main_arg0) S1x1024x4096.size reads0_0 false false 2 stage0_0 sem0_0 nbuf0_0 hstage0_0

abbrev spec0_1 : Pipeline.WinSpec sig grid0.rank :=
  Pipeline.WinSpec.ofSpec (Memref.whole main_arg2) S1x16x4096.size reads0_1 false false 2 stage0_1 sem0_1 nbuf0_1 hstage0_1

abbrev spec0_2 : Pipeline.WinSpec sig grid0.rank :=
  Pipeline.WinSpec.ofSpec (Memref.whole main_v1) S1x1024x16.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x16x4096.size a ≤ S32x16x4096.size a), EltTy.bits .f32 = 32 ∨ (Rect.block (s := S32x16x4096) S1x16x4096.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4x2048x4096 : Shape := ⟨3, ![4, 2048, 4096]⟩
abbrev S4 : Shape := ⟨1, ![4]⟩
abbrev S32x16x4096 : Shape := ⟨3, ![32, 16, 4096]⟩
abbrev S_ : Shape := ⟨0, ![]⟩
abbrev S4x1 : Shape := ⟨2, ![4, 1]⟩
abbrev S4x16x4096 : Shape := ⟨3, ![4, 16, 4096]⟩
abbrev S4x2048x16 : Shape := ⟨3, ![4, 2048, 16]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4, .i32⟩
  | .hbm, ⟨2, _⟩ => ⟨S32x16x4096, .f32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S4x16x4096, .f32⟩
  | .hbm, ⟨12, _⟩ => ⟨S4x2048x16, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  gather_S32x16x4096_S4x1_S4x16x4096_12_0_n_n_0_1_1164096_wf : GatherDims.WF S32x16x4096 S4x1 S4x16x4096 [1, 2] [0] [] [0] [] 1 ![1, 16, 4096]
  dot_S4x2048x4096_S4x16x4096_S4x2048x16_2_2_1_1_0_0_wf : DotDims.WF S4x2048x4096 S4x16x4096 S4x2048x16 [2] [2] [1] [1] [0] [0]

variable [Facts₀]

def gather_S32x16x4096_S4x1_S4x16x4096_12_0_n_n_0_1_1164096 : GatherDims S32x16x4096 S4x1 S4x16x4096 where
  offsetDims := [1, 2]
  collapsedSliceDims := [0]
  operandBatchingDims := []
  startIndicesBatchingDims := []
  startIndexMap := [0]
  indexVectorDim := 1
  sliceSizes := ![1, 16, 4096]
  wf := gather_S32x16x4096_S4x1_S4x16x4096_12_0_n_n_0_1_1164096_wf
def dot_S4x2048x4096_S4x16x4096_S4x2048x16_2_2_1_1_0_0 : DotDims S4x2048x4096 S4x16x4096 S4x2048x16 where
  lhsContracting := [2]
  rhsContracting := [2]
  lhsNonContracting := [1]
  rhsNonContracting := [1]
  lhsBatch := [0]
  rhsBatch := [0]
  wf := dot_S4x2048x4096_S4x16x4096_S4x2048x16_2_2_1_1_0_0_wf

class Facts : Prop extends Facts₀ where

variable [Facts]
-- ==== Proof.Rows.lean ====
/-
  Which row of the adapter table a batch element reads, and the function both programs compute.

  An adapter id is a 32-bit word `v`. Read as a signed integer and brought into `[0, 31]` it names the row
  `rowNat v = min (max v 0) 31` of the table's 32 rows. Two ways of getting there meet in the programs:
  clamping the word itself between 0 and 31 with the signed maximum and minimum (`clamp_toNat`: for EVERY word the
  clamped word, read unsigned, is `rowNat v`), and first adding 32 to a negative word, as indexing from the end does,
  and clamping afterwards (`wrap_of_nonneg`: a word that is not negative is left as it is). The two agree exactly on
  the words that are not negative, which is what the precondition states of every id.

  The result, for batch element `b`, sequence position `s` and output feature `o`, is the dot product over the 4096
  input features of row `(b, s)` of `x` with row `o` of the selected table slice:
  `proj x ids W (b, s, o) = ∑ k, x (b, s, k) · W (rowNat (ids b), o, k)`.
-/
import Idealize.ShloMosaic.PureOps.Ideal
import Idealize.ShloMosaic.Lib.ValueIdx

noncomputable section

namespace Cert.LoraRows

open Idealize.ShloMosaic Idealize.ShloMosaic.ValueIdx

/-! ## The selected row -/

/-- The table row a word selects: its signed value brought into `[0, 31]`. -/
def rowNat (v : BitVec 32) : Nat := min v.toInt.toNat 31

theorem rowNat_lt (v : BitVec 32) : rowNat v < 32 := by unfold rowNat; omega

theorem toInt_zero : (0#32 : BitVec 32).toInt = 0 := by decide
theorem toInt_31 : (31#32 : BitVec 32).toInt = 31 := by decide

/-- A word's signed value is its unsigned value, less 2³² when the top bit is set. -/
theorem toInt_cases (v : BitVec 32) :
    (v.toInt = (v.toNat : Int) ∧ v.toNat < 2 ^ 31) ∨ (v.toInt = (v.toNat : Int) - 2 ^ 32 ∧ 2 ^ 31 ≤ v.toNat) := by
  have hlt : v.toNat < 2 ^ 32 := v.isLt
  unfold BitVec.toInt
  split <;> [left; right] <;> constructor <;> omega

/-- The signed maximum with 0 followed by the signed minimum with 31, read unsigned, is the selected row — for every
    word: a negative one gives 0, one above 31 gives 31, any other itself. -/
theorem clamp_toNat (v : BitVec 32) : (IntOp.minsi (31#32) (IntOp.maxsi (0#32) v)).toNat = rowNat v := by
  have hc := toInt_cases v
  unfold rowNat
  by_cases hneg : v.toInt < 0
  · have h1 : IntOp.maxsi (0#32) v = 0#32 := by
      unfold IntOp.maxsi
      rw [if_pos (by simp only [BitVec.slt, toInt_zero, decide_eq_true_eq]; exact hneg)]
    rw [h1, show IntOp.minsi (31#32) (0#32) = 0#32 from by decide]
    show (0 : Nat) = _
    omega
  · have h1 : IntOp.maxsi (0#32) v = v := by
      unfold IntOp.maxsi
      rw [if_neg (by simp only [BitVec.slt, toInt_zero, decide_eq_true_eq]; exact hneg)]
    rw [h1]
    unfold IntOp.minsi
    by_cases hbig : (31 : Int) < v.toInt
    · rw [if_pos (by simp only [BitVec.slt, toInt_31, decide_eq_true_eq]; exact hbig)]
      show (31 : Nat) = _
      omega
    · rw [if_neg (by simp only [BitVec.slt, toInt_31, decide_eq_true_eq]; exact hbig)]
      omega

/-- The signed test `v ≥ 0` holding says the word's signed value is not negative. -/
theorem nonneg_of_sge {v : BitVec 32} (h : IntOp.cmpi .sge v (0#32) = 1#1) : 0 ≤ v.toInt := by
  have h' : BitVec.ofBool ((0#32 : BitVec 32).sle v) = 1#1 := h
  have hb : (0#32 : BitVec 32).sle v = true := by
    cases hs : (0#32 : BitVec 32).sle v
    · rw [hs] at h'; exact absurd h' (by decide)
    · rfl
  simp only [BitVec.sle, toInt_zero, decide_eq_true_eq] at hb
  exact hb

/-- Indexing from the end, `if v < 0 then v + 32 else v`, leaves a word that is not negative as it is. -/
theorem wrap_of_nonneg {v : BitVec 32} (h : 0 ≤ v.toInt) :
    Scalar.select (IntOp.cmpi .slt v (0#32)) (IntOp.addi v (32#32)) v = v := by
  have hs : v.slt (0#32) = false := by
    simp only [BitVec.slt, toInt_zero, decide_eq_false_iff_not]; omega
  have hc : IntOp.cmpi .slt v (0#32) = 0#1 := by
    show BitVec.ofBool (v.slt (0#32)) = 0#1
    rw [hs]; rfl
  rw [hc]
  exact if_neg (by decide)

/-! ## The function both programs compute -/

abbrev SX : Shape := ⟨3, ![4, 2048, 4096]⟩
abbrev SI : Shape := ⟨1, ![4]⟩
abbrev SW : Shape := ⟨3, ![32, 16, 4096]⟩
abbrev SY : Shape := ⟨3, ![4, 2048, 16]⟩

/-- The table row batch element `b` reads. -/
def rowSel (ids : IVec SI 32) (b : Fin 4) : Fin 32 := ⟨rowNat (ids (ix1 b)), rowNat_lt _⟩

/-- Entry `(b, s, o)` of the result: row `(b, s)` of `x` against row `o` of the selected table slice. -/
def projAt (x : FVec Ideal SX .f32) (ids : IVec SI 32) (W : FVec Ideal SW .f32) (b : Fin 4) (s : Fin 2048) (o : Fin 16) : EReal :=
  ∑ k : Fin 4096, x (ix3 b s k) * W (ix3 (rowSel ids b) o k)

/-- The result array. -/
def proj (x : FVec Ideal SX .f32) (ids : IVec SI 32) (W : FVec Ideal SW .f32) : FVec Ideal SY .f32 :=
  fun j => projAt x ids W (j 0) (j 1) (j 2)

end Cert.LoraRows

end
-- ==== Proof.PreIds.lean ====
/-
  What the precondition says of the ids.

  The precondition is the conjunction of "every entry of `x` is finite", "every entry of `W` is finite" and
  "every id is at least 0", each an `and`-reduction over its array. Holding, its last conjunct gives the signed test
  `ids b ≥ 0` at every batch element `b`, that is `0 ≤ (ids b)` read as a signed integer (`ids_nonneg`). The two
  finiteness conjuncts are not used: the two programs compute the same sum of products on all extended reals.
-/
import proofs.«417022_j83623013253475_3_alg».proof.Pre_finite_inputs
import proofs.«417022_j83623013253475_3_alg».proof.Proof.Gen.Pre_finite_inputs
import proofs.«417022_j83623013253475_3_alg».proof.Proof.Rows
import Idealize.ShloMosaic.Lib.ReduceAll
import Idealize.ShloMosaic.Lib.Affine
import Idealize.ShloMosaic.Lib.Pipeline.Value

noncomputable section

namespace Cert.Pre_finite_inputs.Ids

open Cert.Pre_finite_inputs Cert.Pre_finite_inputs.Gen
open Idealize.ShloMosaic Idealize.ShloMosaic.ValueIdx Cert.LoraRows

variable {F : FTy → Type} [FloatOps F]

/-- The result of an `and`-reduction over all axes has one index. -/
instance : Subsingleton S_.Idx := ⟨fun a b => funext fun d => d.elim0⟩

/-- The scalar 0 laid along the four ids reads 0 at each. -/
theorem bcast_zero (x : S4.Idx) : broadcastInDim S4 ![] Facts.bcast_S_S4 (constantI S_ 32 0#32) x = 0#32 :=
  (broadcastInDim_apply _ Facts.bcast_S_S4 (constantI S_ 32 0#32) x (fun a => a.elim0) (fun a => a.elim0)).trans rfl

/-- THE IDS ARE NOT NEGATIVE: the precondition's last conjunct, read at batch element `b`. -/
theorem ids_nonneg (x : FVec F S4x2048x4096 .f32) (ids : IVec S4 32) (W : FVec F S32x16x4096 .f32)
    (h : fn (F := F) x ids W = fun _ => 1#1) (b : Fin 4) : 0 ≤ (ids (ix1 b)).toInt := by
  have e := congrFun h ix0
  unfold fn at e
  dsimp only at e
  have e2 := (IntOp.andi_eq_one.mp e).2
  have hb := Host.reduce_andi_all _ _ _ _ _ e2 (ix1 b)
  have hb' : IntOp.cmpi .sge (ids (ix1 b)) (0#32) = 1#1 := by
    rw [← bcast_zero (ix1 b)]; exact hb
  exact nonneg_of_sge hb'

end Cert.Pre_finite_inputs.Ids

end
-- ==== Proof.KernelTable.lean ====
/-
  The prefetched table of row numbers.

  Before the launch the program clamps the ids: `tbl = min 31 (max 0 ids)`, the signed maximum and minimum entry by
  entry (`tbl_eq`, `tbl_apply`). Read unsigned, entry `b` is therefore the row `rowNat (ids b)` of the adapter table,
  for every launch memory (`tbl_toNat`), and it is below 32. The index map of the adapter table's window names, at grid
  point `(b, s)`, the block `(tbl b, 0, 0)` of size `(1, 16, 4096)` (`row_eq`): since `tbl b < 32` the block lies inside
  the `(32, 16, 4096)` table, which is the side condition the launch asks of the table's contents (`ok`). Nothing is
  asked of the ids for this: the clamp alone keeps every row in range.
-/
import proofs.«417022_j83623013253475_3_alg».proof.Proof.Gen.Kernel.Frame
import proofs.«417022_j83623013253475_3_alg».proof.Proof.Rows
import Idealize.ShloMosaic.Lib.Pipeline.Value
import Idealize.ShloMosaic.Lib.StableHlo.Run
import Idealize.ShloMosaic.Lib.Tactic

set_option maxRecDepth 16384

noncomputable section

namespace Cert.Kernel.Table

open Cert.Kernel Cert.Kernel.Gen
open Idealize.ShloMosaic Idealize.ShloMosaic.TcCoe Idealize.SL.Sem Idealize.ShloMosaic.ValueIdx Cert.LoraRows

variable {F : FTy → Type} [FloatOps F]
variable (m : (ℓ : Loc nD τ sig) → Buf (Elt F) ℓ)

/-- The ids as the program's one device holds them at launch. -/
abbrev ids0 : IVec S4 32 := m (((0 : Dev nD) : Thread nD τ).loc main_arg1)

/-- The table when the region is entered: the ids clamped between 0 and 31. -/
theorem tbl_eq : tbl m 0 = minsi (broadcastInDim S4 ![] Facts₀.bcast_S_S4 (constantI S_ 32 31#32))
    (maxsi (broadcastInDim S4 ![] Facts₀.bcast_S_S4 (constantI S_ 32 0#32)) (ids0 m)) := by
  unfold tbl
  show V m (0 : Dev nD) main_v0 = _
  dsimp only [V]
  simp only [hostOps0, hostOps0_1, List.flatten_cons, List.flatten_nil, List.append_nil, List.cons_append, List.nil_append]
  after_results
  rfl

/-- A scalar word laid along the four entries reads that word at each. -/
theorem bcast_const (w : BitVec 32) (x : S4.Idx) : broadcastInDim S4 ![] Facts₀.bcast_S_S4 (constantI S_ 32 w) x = w :=
  (broadcastInDim_apply _ Facts₀.bcast_S_S4 (constantI S_ 32 w) x (fun a => a.elim0) (fun a => a.elim0)).trans rfl

/-- Entry `x` of the table: the id clamped. -/
theorem tbl_apply (x : S4.Idx) : tbl m 0 x = IntOp.minsi (31#32) (IntOp.maxsi (0#32) (ids0 m x)) := by
  rw [tbl_eq]
  show IntOp.minsi (broadcastInDim S4 ![] Facts₀.bcast_S_S4 (constantI S_ 32 31#32) x)
    (IntOp.maxsi (broadcastInDim S4 ![] Facts₀.bcast_S_S4 (constantI S_ 32 0#32) x) (ids0 m x)) = _
  rw [bcast_const, bcast_const]

/-- Read unsigned, it is the selected row. -/
theorem tbl_toNat (x : S4.Idx) : (tbl m 0 x).toNat = rowNat (ids0 m x) := by
  rw [tbl_apply]; exact clamp_toNat _

/-- THE SIDE CONDITION OF THE TABLE: at every grid point the adapter table's block lies inside the table. -/
theorem ok : Ok m := by
  intro i
  obtain ⟨w, hw, e⟩ : ∃ w : BitVec 32, w.toNat < 32 ∧
      cc0_transform_1 Facts₀.k0_off1_inb Facts₀.numel1_S1 (tbl m) i = ![w.toNat, 0, 0] :=
    ⟨_, lt_of_eq_of_lt (tbl_toNat m _) (rowNat_lt _), rfl⟩
  refine ⟨fun a => ?_, Or.inl rfl⟩
  rw [e]
  fin_cases a <;> simp [S1x16x4096, S32x16x4096] <;> omega

/-- The row the adapter table's window names at a grid point: the selected row of the point's batch element. -/
theorem row_eq (i : grid0.Coords) :
    cc0_transform_1 Facts₀.k0_off1_inb Facts₀.numel1_S1 (tbl m) i 0 = rowNat (ids0 m (ix1 (i 0))) := by
  refine (tbl_toNat m _).trans ?_
  refine congrArg (fun x => rowNat (ids0 m x)) ?_
  funext a
  refine Fin.ext ?_
  match a with
  | ⟨0, _⟩ =>
    have h4 : (i 0).val < 4 := (i 0).isLt
    -- the word's offset is the batch coordinate itself (it is below 2³²), and a one-word rectangle has one index
    have hc : (Scalar.indexCast (BitVec.ofNat 32 (i 0).val)).toNat = (i 0).val := by
      show (BitVec.ofNat 32 (i 0).val).toNat = _
      rw [BitVec.toNat_ofNat]; exact Nat.mod_eq_of_lt (by omega)
    have key : ∀ q : Fin (S1.size (0 : Fin 1)),
        (Scalar.indexCast (BitVec.ofNat 32 (i 0).val)).toNat + 1 * q.val = (i 0).val := by
      intro q
      have hq := q.isLt
      have e1 : S1.size (0 : Fin 1) = 1 := by decide
      rw [hc]; omega
    exact key _

end Cert.Kernel.Table

end
-- ==== Proof.KernelIdealTable.lean ====
/-
  The prefetched table of row numbers.

  Before the launch the program clamps the ids: `tbl = min 31 (max 0 ids)`, the signed maximum and minimum entry by
  entry (`tbl_eq`, `tbl_apply`). Read unsigned, entry `b` is therefore the row `rowNat (ids b)` of the adapter table,
  for every launch memory (`tbl_toNat`), and it is below 32. The index map of the adapter table's window names, at grid
  point `(b, s)`, the block `(tbl b, 0, 0)` of size `(1, 16, 4096)` (`row_eq`): since `tbl b < 32` the block lies inside
  the `(32, 16, 4096)` table, which is the side condition the launch asks of the table's contents (`ok`). Nothing is
  asked of the ids for this: the clamp alone keeps every row in range.
-/
import proofs.«417022_j83623013253475_3_alg».proof.Proof.Gen.KernelIdeal.Frame
import proofs.«417022_j83623013253475_3_alg».proof.Proof.Rows
import Idealize.ShloMosaic.Lib.Pipeline.Value
import Idealize.ShloMosaic.Lib.StableHlo.Run
import Idealize.ShloMosaic.Lib.Tactic

set_option maxRecDepth 16384

noncomputable section

namespace Cert.KernelIdeal.Table

open Cert.KernelIdeal Cert.KernelIdeal.Gen
open Idealize.ShloMosaic Idealize.ShloMosaic.TcCoe Idealize.SL.Sem Idealize.ShloMosaic.ValueIdx Cert.LoraRows

variable {F : FTy → Type} [FloatOps F]
variable (m : (ℓ : Loc nD τ sig) → Buf (Elt F) ℓ)

/-- The ids as the program's one device holds them at launch. -/
abbrev ids0 : IVec S4 32 := m (((0 : Dev nD) : Thread nD τ).loc main_arg1)

/-- The table when the region is entered: the ids clamped between 0 and 31. -/
theorem tbl_eq : tbl m 0 = minsi (broadcastInDim S4 ![] Facts₀.bcast_S_S4 (constantI S_ 32 31#32))
    (maxsi (broadcastInDim S4 ![] Facts₀.bcast_S_S4 (constantI S_ 32 0#32)) (ids0 m)) := by
  unfold tbl
  show V m (0 : Dev nD) main_v0 = _
  dsimp only [V]
  simp only [hostOps0, hostOps0_1, List.flatten_cons, List.flatten_nil, List.append_nil, List.cons_append, List.nil_append]
  after_results
  rfl

/-- A scalar word laid along the four entries reads that word at each. -/
theorem bcast_const (w : BitVec 32) (x : S4.Idx) : broadcastInDim S4 ![] Facts₀.bcast_S_S4 (constantI S_ 32 w) x = w :=
  (broadcastInDim_apply _ Facts₀.bcast_S_S4 (constantI S_ 32 w) x (fun a => a.elim0) (fun a => a.elim0)).trans rfl

/-- Entry `x` of the table: the id clamped. -/
theorem tbl_apply (x : S4.Idx) : tbl m 0 x = IntOp.minsi (31#32) (IntOp.maxsi (0#32) (ids0 m x)) := by
  rw [tbl_eq]
  show IntOp.minsi (broadcastInDim S4 ![] Facts₀.bcast_S_S4 (constantI S_ 32 31#32) x)
    (IntOp.maxsi (broadcastInDim S4 ![] Facts₀.bcast_S_S4 (constantI S_ 32 0#32) x) (ids0 m x)) = _
  rw [bcast_const, bcast_const]

/-- Read unsigned, it is the selected row. -/
theorem tbl_toNat (x : S4.Idx) : (tbl m 0 x).toNat = rowNat (ids0 m x) := by
  rw [tbl_apply]; exact clamp_toNat _

/-- THE SIDE CONDITION OF THE TABLE: at every grid point the adapter table's block lies inside the table. -/
theorem ok : Ok m := by
  intro i
  obtain ⟨w, hw, e⟩ : ∃ w : BitVec 32, w.toNat < 32 ∧
      cc0_transform_1 Facts₀.k0_off1_inb Facts₀.numel1_S1 (tbl m) i = ![w.toNat, 0, 0] :=
    ⟨_, lt_of_eq_of_lt (tbl_toNat m _) (rowNat_lt _), rfl⟩
  refine ⟨fun a => ?_, Or.inl rfl⟩
  rw [e]
  fin_cases a <;> simp [S1x16x4096, S32x16x4096] <;> omega

/-- The row the adapter table's window names at a grid point: the selected row of the point's batch element. -/
theorem row_eq (i : grid0.Coords) :
    cc0_transform_1 Facts₀.k0_off1_inb Facts₀.numel1_S1 (tbl m) i 0 = rowNat (ids0 m (ix1 (i 0))) := by
  refine (tbl_toNat m _).trans ?_
  refine congrArg (fun x => rowNat (ids0 m x)) ?_
  funext a
  refine Fin.ext ?_
  match a with
  | ⟨0, _⟩ =>
    have h4 : (i 0).val < 4 := (i 0).isLt
    -- the word's offset is the batch coordinate itself (it is below 2³²), and a one-word rectangle has one index
    have hc : (Scalar.indexCast (BitVec.ofNat 32 (i 0).val)).toNat = (i 0).val := by
      show (BitVec.ofNat 32 (i 0).val).toNat = _
      rw [BitVec.toNat_ofNat]; exact Nat.mod_eq_of_lt (by omega)
    have key : ∀ q : Fin (S1.size (0 : Fin 1)),
        (Scalar.indexCast (BitVec.ofNat 32 (i 0).val)).toNat + 1 * q.val = (i 0).val := by
      intro q
      have hq := q.isLt
      have e1 : S1.size (0 : Fin 1) = 1 := by decide
      rw [hc]; omega
    exact key _

end Cert.KernelIdeal.Table

end
-- ==== Proof.KernelIdealRows.lean ====
/-
  The kernel's result array.

  At grid point `(b, s)` the body holds two blocks: `xb`, rows `1024·s … 1024·s + 1023` of `x[b]` (`xblk_apply`), and `wb`,
  the table slice `W[tbl b]` (`wblk_apply`), where `tbl b` read unsigned is the selected row `rowNat (ids b)`. Its loop
  makes two trips; trip `k` multiplies rows `512·k … 512·k + 511` of `xb` by the transposed slice into a zero accumulator
  and stores the product into the same rows of the output block. At block index `(0, r, o)` a trip's product is
  `∑ kk, xb (0, 512·k + r', kk) · wb (0, o, kk)` (`pay_apply`: a matrix product into zero is the plain sum over the
  contracted axis, and a change of float format is the identity on the extended reals), so every piece the two trips
  store is a block of ONE function of the output block's index, `blockFn xb wb (0, r, o) = ∑ kk, xb (0, r, kk) · wb (0, o, kk)`
  (`trip_agrees`), and the pieces cover the block: the block ends holding `blockFn xb wb` (`out_eq`).
  Read through the two blocks that is `proj x ids W` at `(b, 1024·s + r, o)`: the block the point writes back is the
  block of `proj x ids W` at its place (`flushed_eq`); the eight points' blocks tile the `(4, 2048, 16)` result
  (`cover`), so the result array ends holding `proj x ids W` (`final`, `run`).
-/
import proofs.«417022_j83623013253475_3_alg».proof.Proof.Gen.KernelIdeal.Frame
import proofs.«417022_j83623013253475_3_alg».proof.Proof.KernelIdealTable
import Idealize.ShloMosaic.PureOps.Ideal.Laws
import Idealize.ShloMosaic.Lib.Pipeline.Value
import Idealize.ShloMosaic.Lib.ValueIdx
import Idealize.ShloMosaic.Lib.Tactic

set_option maxRecDepth 16384

noncomputable section

namespace Cert.KernelIdeal.RowsValue

open Cert.KernelIdeal Cert.KernelIdeal.Gen Cert.KernelIdeal.Table
open Idealize.ShloMosaic Idealize.ShloMosaic.TcCoe Idealize.ShloMosaic.Tactic Idealize.SL.Sem Idealize.ShloMosaic.ValueIdx
open Cert.LoraRows
open Idealize.ShloMosaic.Pipeline (Dat Cfg Window)

/-! ## The block product at an index -/

/-- The left operand's row is the product's row. -/
theorem lhs_0 (j : S512x16.Idx) (q : dot_S512x4096_S16x4096_S512x16_1_1_0_0_n_n.contr.Idx) : (dot_S512x4096_S16x4096_S512x16_1_1_0_0_n_n.lhsIdx j q 0).val = (j 0).val := by
  unfold DotDims.lhsIdx
  rw [dif_neg (show ¬(0 : Fin S512x4096.rank) ∈ dot_S512x4096_S16x4096_S512x16_1_1_0_0_n_n.lhsBatch by decide),
    dif_pos (show (0 : Fin S512x4096.rank) ∈ dot_S512x4096_S16x4096_S512x16_1_1_0_0_n_n.lhsNonContracting by decide)]
  rfl
/-- Its column is the contracted index. -/
theorem lhs_1 (j : S512x16.Idx) (q : dot_S512x4096_S16x4096_S512x16_1_1_0_0_n_n.contr.Idx) : (dot_S512x4096_S16x4096_S512x16_1_1_0_0_n_n.lhsIdx j q 1).val = (q ⟨0, by decide⟩).val :=
  dot_S512x4096_S16x4096_S512x16_1_1_0_0_n_n.lhsIdx_val_of_single rfl j q
/-- The right operand's row is the product's column. -/
theorem rhs_0 (j : S512x16.Idx) (q : dot_S512x4096_S16x4096_S512x16_1_1_0_0_n_n.contr.Idx) : (dot_S512x4096_S16x4096_S512x16_1_1_0_0_n_n.rhsIdx j q 0).val = (j 1).val := by
  unfold DotDims.rhsIdx
  rw [dif_neg (show ¬(0 : Fin S16x4096.rank) ∈ dot_S512x4096_S16x4096_S512x16_1_1_0_0_n_n.rhsBatch by decide),
    dif_pos (show (0 : Fin S16x4096.rank) ∈ dot_S512x4096_S16x4096_S512x16_1_1_0_0_n_n.rhsNonContracting by decide)]
  rfl
/-- Its column is the contracted index. -/
theorem rhs_1 (j : S512x16.Idx) (q : dot_S512x4096_S16x4096_S512x16_1_1_0_0_n_n.contr.Idx) : (dot_S512x4096_S16x4096_S512x16_1_1_0_0_n_n.rhsIdx j q 1).val = (q ⟨0, by decide⟩).val :=
  dot_S512x4096_S16x4096_S512x16_1_1_0_0_n_n.rhsIdx_val_of_single rfl j q

/-- ONE TRIP'S PRODUCT AT AN INDEX: entry `(0, r, o)` of what a trip stores is the sum over the 4096 input features of
    the loaded rows' `(0, r, k)` times the table slice's `(0, o, k)`. -/
theorem pay_apply (v0 : Vec Ideal S1x16x4096 .f32) (v7 : Vec Ideal S1x512x4096 .f32) (z : Fin 1) (r : Fin 512) (o : Fin 16) :
    k0_pay1 (F := Ideal) v0 v7 (ix3 z r o) = ∑ k : Fin 4096, v7 (ix3 (0 : Fin 1) r k) * v0 (ix3 (0 : Fin 1) o k) := by
  unfold k0_pay1
  -- the product, with a unit axis put in front: read it at the product's own (r, o)
  refine (shapeCast_addUnit_apply ![512, 16] _ _ (ix3 z r o)).trans ?_
  have ej : (fun a : Fin 2 => (ix3 z r o : S1x512x16.Idx) a.succ) = (ix2 r o : S512x16.Idx) :=
    funext fun a => by
      match a with
      | ⟨0, _⟩ => rfl
      | ⟨1, _⟩ => rfl
  rw [ej]
  simp only [matmul]
  -- a product into the zero accumulator is the sum over the contracted axis
  rw [Ideal.matmul_constant_zero_apply,
    ← Equiv.sum_comp (contrEquiv1 dot_S512x4096_S16x4096_S512x16_1_1_0_0_n_n 4096 rfl rfl).symm]
  refine Finset.sum_congr rfl fun k _ => ?_
  have hk := contrEquiv1_symm_val dot_S512x4096_S16x4096_S512x16_1_1_0_0_n_n 4096 rfl rfl k
  have el : dot_S512x4096_S16x4096_S512x16_1_1_0_0_n_n.lhsIdx (ix2 r o) ((contrEquiv1 dot_S512x4096_S16x4096_S512x16_1_1_0_0_n_n 4096 rfl rfl).symm k) = ix2 r k :=
    funext fun a => Fin.ext (by
      match a with
      | ⟨0, _⟩ => exact lhs_0 _ _
      | ⟨1, _⟩ => exact (lhs_1 _ _).trans hk)
  have er : dot_S512x4096_S16x4096_S512x16_1_1_0_0_n_n.rhsIdx (ix2 r o) ((contrEquiv1 dot_S512x4096_S16x4096_S512x16_1_1_0_0_n_n 4096 rfl rfl).symm k) = ix2 o k :=
    funext fun a => Fin.ext (by
      match a with
      | ⟨0, _⟩ => exact rhs_0 _ _
      | ⟨1, _⟩ => exact (rhs_1 _ _).trans hk)
  rw [el, er]
  -- the change of float format is the identity; the operands are the loaded blocks without their unit axis
  show shapeCast S512x4096 v7 _ (ix2 r k) * shapeCast S16x4096 v0 _ (ix2 o k) = _
  rw [shapeCast_dropUnit_apply ![512, 4096], shapeCast_dropUnit_apply ![16, 4096]]
  have c7 : (Fin.cons (⟨0, Nat.one_pos⟩ : Fin 1) (ix2 r k : S512x4096.Idx) : S1x512x4096.Idx) = ix3 (0 : Fin 1) r k :=
    funext fun a => by
      match a with
      | ⟨0, _⟩ => rfl
      | ⟨1, _⟩ => rfl
      | ⟨2, _⟩ => rfl
  have c0 : (Fin.cons (⟨0, Nat.one_pos⟩ : Fin 1) (ix2 o k : S16x4096.Idx) : S1x16x4096.Idx) = ix3 (0 : Fin 1) o k :=
    funext fun a => by
      match a with
      | ⟨0, _⟩ => rfl
      | ⟨1, _⟩ => rfl
      | ⟨2, _⟩ => rfl
  exact congr (congrArg HMul.hMul (congrArg v7 c7)) (congrArg v0 c0)

/-! ## What one point leaves in the output block -/

/-- The output block as a function of the two input blocks: row `r` of the first against row `o` of the second. -/
def blockFn (x0 : Vec Ideal S1x1024x4096 .f32) (x1 : Vec Ideal S1x16x4096 .f32) : Vec Ideal S1x1024x16 .f32 :=
  fun y => ∑ k : Fin 4096, x0 (ix3 (0 : Fin 1) (y 1) k) * x1 (ix3 (0 : Fin 1) (y 2) k)

/-- ONE TRIP: every piece trip `k` stores is the block of `blockFn` its rectangle names — its rows are rows
    `512·k …` of the output block, computed from the same rows of the first input block. -/
theorem trip_agrees (𝒱 : Variants) (c : Dev nD) (bd : Option 𝒱.V) (i : grid0.Coords) (arg2 : Memref sig .tc .smem S4 .i32) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1x1024x16 .f32) (harg5 : arg5.IsWhole)
    (x0 : Vec Ideal S1x1024x4096 .f32) (x1 : Vec Ideal S1x16x4096 .f32) (k : Fin k0_t1_loop.trips) :
    ∀ p ∈ tripL_k0_t1 (F := Ideal) 𝒱 c bd i arg2 harg2 arg3 harg3 arg4 harg4 arg5 harg5 x1 (harg3.unread x0) k,
      ∀ x : p.1.shape.Idx, p.2 x = blockFn x0 x1 (p.1.emb x) := by
  unfold tripL_k0_t1 trip_k0_t1
  dsimp only
  sl_unfold_words
  intro p hp x
  obtain rfl := List.mem_singleton.mp hp
  -- the loaded rows are the first input block read through the load's rectangle
  simp only [View.readAt_eq_ld, harg3.read_unread]
  obtain ⟨z, r, o, rfl⟩ : ∃ (z : Fin 1) (r : Fin 512) (o : Fin 16), x = ix3 z r o := ⟨x 0, x 1, x 2, eq_ix3 x⟩
  refine (pay_apply x1 _ z r o).trans ?_
  unfold blockFn
  refine Finset.sum_congr rfl fun k' _ => ?_
  -- the load and the store sit at the same row offset, so the rows read are the rows written
  refine congr (congrArg HMul.hMul (congrArg x0 ?_)) (congrArg x1 ?_)
  · funext a
    refine Fin.ext ?_
    match a with
    | ⟨0, _⟩ => rfl
    | ⟨1, _⟩ => rfl
    | ⟨2, _⟩ => show 0 + 1 * k'.val = k'.val; omega
  · funext a
    refine Fin.ext ?_
    match a with
    | ⟨0, _⟩ => rfl
    | ⟨1, _⟩ => show o.val = 0 + 1 * o.val; omega
    | ⟨2, _⟩ => rfl

/-- ALL TRIPS: the same of every piece of the trips before `n`, by induction on `n`. -/
theorem pb_agrees (𝒱 : Variants) (c : Dev nD) (bd : Option 𝒱.V) (i : grid0.Coords) (arg2 : Memref sig .tc .smem S4 .i32) (harg2 : arg2.IsWhole) (arg3 : Memref sig .tc .vmem S1x1024x4096 .f32) (harg3 : arg3.IsWhole) (arg4 : Memref sig .tc .vmem S1x16x4096 .f32) (harg4 : arg4.IsWhole) (arg5 : Memref sig .tc .vmem S1x1024x16 .f32) (harg5 : arg5.IsWhole)
    (x0 : Vec Ideal S1x1024x4096 .f32) (x1 : Vec Ideal S1x16x4096 .f32) :
    ∀ n : ℕ, ∀ p ∈ pb_k0_t1 (F := Ideal) 𝒱 c bd i arg2 harg2 arg3 harg3 arg4 harg4 arg5 harg5 x1 (harg3.unread x0) n,
      ∀ x : p.1.shape.Idx, p.2 x = blockFn x0 x1 (p.1.emb x)
  | 0 => fun p hp => absurd hp (by rw [pb_k0_t1.eq_1]; exact List.not_mem_nil)
  | n + 1 => fun p hp => by
    rw [pb_k0_t1.eq_2] at hp
    unfold pb_k0_t1Step at hp
    split at hp
    · rename_i hn
      rcases List.mem_append.mp hp with h | h
      · exact trip_agrees 𝒱 c bd i arg2 harg2 arg3 harg3 arg4 harg4 arg5 harg5 x0 x1 ⟨n, hn⟩ p h
      · exact pb_agrees 𝒱 c bd i arg2 harg2 arg3 harg3 arg4 harg4 arg5 harg5 x0 x1 n p h
    · exact pb_agrees 𝒱 c bd i arg2 harg2 arg3 harg3 arg4 harg4 arg5 harg5 x0 x1 n p hp

theorem hz3 : (![0, 0, 0] : Fin 3 → Nat) = fun _ => 0 := funext fun a => by fin_cases a <;> rfl

/-- After the body the output block holds `blockFn` of the input blocks. -/
theorem out_eq (c : Dev nD) (i : grid0.Coords) (arg3 : Memref sig .tc .vmem S1x1024x4096 .f32) (harg3 : arg3.IsWhole)
    (arg4 : Memref sig .tc .vmem S1x16x4096 .f32) (harg4 : arg4.IsWhole) (arg5 : Memref sig .tc .vmem S1x1024x16 .f32) (harg5 : arg5.IsWhole)
    (x0 : Vec Ideal S1x1024x4096 .f32) (x1 : Vec Ideal S1x16x4096 .f32) (xt0 : TbBuf0 (F := Ideal) c tbM0_0) :
    out0_A_2 (F := Ideal) c i arg3 harg3 arg4 harg4 arg5 harg5 x0 x1 xt0 = blockFn x0 x1 := by
  funext y
  unfold out0_A_2
  refine View.read_writes_apply_of_pieces _ _ (blockFn x0 x1) _ ?_ y (cover0_A_2 c i arg3 harg3 arg4 harg4 arg5 harg5 x0 x1 xt0 y)
  unfold kernelRun0_A
  dsimp only
  sl_unfold_words
  simp only [View.readAt_eq_ld, harg4.read_unread, View.ld_unit_zero (S := S1x16x4096) hz3]
  exact pb_agrees _ c _ i _ _ arg3 harg3 arg4 harg4 arg5 harg5 x0 x1 _

/-! ## The two input blocks, read off the arrays -/

variable (m : (ℓ : Loc nD τ sig) → Buf (Elt Ideal) ℓ) (ρ : Dev nD → PrngReg)

/-- The arrays as the region finds them, at their literal types. -/
abbrev xarr (c : Dev nD) : Vec Ideal S4x2048x4096 .f32 := V m c main_arg0
abbrev warr (c : Dev nD) : Vec Ideal S32x16x4096 .f32 := V m c main_arg2
/-- The two input blocks at a grid point, at their literal types. -/
abbrev xblk (hO : Ok m) (c : Dev nD) (t : Fin (cfgM m hO).N) : Vec Ideal S1x1024x4096 .f32 := iblk m hO c 0 t
abbrev wblk (hO : Ok m) (c : Dev nD) (t : Fin (cfgM m hO).N) : Vec Ideal S1x16x4096 .f32 := iblk m hO c 1 t

/-- A grid point's batch element and its tile of 1024 sequence positions. -/
abbrev bOf (t : Fin grid0.N) : Fin 4 := grid0.coords t 0
abbrev sOf (t : Fin grid0.N) : Fin 2 := grid0.coords t 1

/-- Row `r` of the point's tile is row `1024·s + r` of the sequence. -/
abbrev seqRow (t : Fin grid0.N) (r : Fin 1024) : Fin 2048 :=
  ⟨(sOf t).val * 1024 + r.val, by have := (sOf t).isLt; have := r.isLt; omega⟩

/-- The index maps of the `x` window and of the output window name, at grid point `(b, s)`, block `(b, s, 0)`:
    decided over the eight grid points. -/
theorem idx_x : ∀ t : Fin grid0.N, cc0_transform_0 (grid0.coords t) = ![(grid0.coords t 0).val, (grid0.coords t 1).val, 0] := by
  decide +kernel
theorem idx_y : ∀ t : Fin grid0.N, cc0_transform_2 (grid0.coords t) = ![(grid0.coords t 0).val, (grid0.coords t 1).val, 0] := by
  decide +kernel
/-- Every pair `(b, s)` is some grid point's. -/
theorem idx_onto : ∀ (q0 : Fin 4) (q1 : Fin 2), ∃ t : Fin grid0.N, (grid0.coords t 0).val = q0.val ∧ (grid0.coords t 1).val = q1.val := by
  decide +kernel

/-- The block of `x` at point `(b, s)`: rows `1024·s …` of `x[b]`. -/
theorem xblk_apply (hO : Ok m) (c : Dev nD) (t : Fin (cfgM m hO).N) (r : Fin 1024) (k : Fin 4096) :
    xblk m hO c t (ix3 (0 : Fin 1) r k) = xarr m c (ix3 (bOf t) (seqRow t r) k) := by
  show V m c main_arg0 ((((cfgM m hO).win 0).blk t).view.emb (ix3 (0 : Fin 1) r k)) = V m c main_arg0 (ix3 (bOf t) (seqRow t r) k)
  refine congrArg (V m c main_arg0) ?_
  have e : ((cfgM m hO).win 0).index t = ![(grid0.coords t 0).val, (grid0.coords t 1).val, 0] := idx_x t
  funext a
  refine Fin.ext ?_
  match a with
  | ⟨0, _⟩ =>
    show ((cfgM m hO).win 0).index t (0 : Fin 3) * 1 + 1 * (0 : ℕ) = (grid0.coords t 0).val
    rw [e]; show (grid0.coords t 0).val * 1 + 1 * 0 = _; omega
  | ⟨1, _⟩ =>
    show ((cfgM m hO).win 0).index t (1 : Fin 3) * 1024 + 1 * r.val = (grid0.coords t 1).val * 1024 + r.val
    rw [e]; show (grid0.coords t 1).val * 1024 + 1 * r.val = _; omega
  | ⟨2, _⟩ =>
    show ((cfgM m hO).win 0).index t (2 : Fin 3) * 4096 + 1 * k.val = k.val
    rw [e]; show 0 * 4096 + 1 * k.val = _; omega

/-- The block of the table at point `(b, s)`: the slice at the selected row of `b`. -/
theorem wblk_apply (hO : Ok m) (c : Dev nD) (t : Fin (cfgM m hO).N) (o : Fin 16) (k : Fin 4096) :
    wblk m hO c t (ix3 (0 : Fin 1) o k) = warr m c (ix3 (rowSel (ids0 m) (bOf t)) o k) := by
  show V m c main_arg2 ((((cfgM m hO).win 1).blk t).view.emb (ix3 (0 : Fin 1) o k)) = V m c main_arg2 (ix3 (rowSel (ids0 m) (bOf t)) o k)
  refine congrArg (V m c main_arg2) ?_
  funext a
  refine Fin.ext ?_
  match a with
  | ⟨0, _⟩ =>
    show ((cfgM m hO).win 1).index t (0 : Fin 3) * 1 + 1 * (0 : ℕ) = rowNat (ids0 m (ix1 (grid0.coords t 0)))
    have e : ((cfgM m hO).win 1).index t (0 : Fin 3) = rowNat (ids0 m (ix1 (grid0.coords t 0))) := row_eq m (grid0.coords t)
    rw [e]; omega
  | ⟨1, _⟩ =>
    show ((cfgM m hO).win 1).index t (1 : Fin 3) * 16 + 1 * o.val = o.val
    have e : ((cfgM m hO).win 1).index t (1 : Fin 3) = 0 := rfl
    rw [e]; omega
  | ⟨2, _⟩ =>
    show ((cfgM m hO).win 1).index t (2 : Fin 3) * 4096 + 1 * k.val = k.val
    have e : ((cfgM m hO).win 1).index t (2 : Fin 3) = 0 := rfl
    rw [e]; omega

/-! ## The result array -/

/-- The result on device `c`: `proj` of the arrays as the region finds them and the ids at launch. -/
abbrev result (c : Dev nD) : Buf (Elt Ideal) ((c.tc : Thread nD τ).loc main_v1) := proj (xarr m c) (ids0 m) (warr m c)

/-- What a point writes back is the block of the result at its place. -/
theorem flushed_eq (hO : Ok m) (c : Dev nD) (t : Fin (cfgM m hO).N) (_hf : ((cfgM m hO).win 2).flush t = true) :
    (dats m hO 0 c).flushed 2 t = (((cfgM m hO).win 2).blk t).view.read (Elt Ideal) (result m c) := by
  show ((cfgM m hO).win 2).cut (grid0.coords t) ((dats m hO 0 c).after 2 t) = _
  rw [after0_2]
  unfold outsAt0
  have eo := out_eq c (grid0.coords t) (ms0_0 m hO t) (hs0_0 m hO t) (ms0_1 m hO t) (hs0_1 m hO t) (ms0_2 m hO t) (hs0_2 m hO t)
    (xblk m hO c t) (wblk m hO c t) (tbl m 0)
  refine (congrArg (((cfgM m hO).win 2).cut (grid0.coords t)) eo).trans ?_
  have e2 : ((cfgM m hO).win 2).index t = ![(grid0.coords t 0).val, (grid0.coords t 1).val, 0] := idx_y t
  funext j
  have hj0 : (j (0 : Fin 3)).val < 1 := (j (0 : Fin 3)).isLt
  have hj1 : (j (1 : Fin 3)).val < 1024 := (j (1 : Fin 3)).isLt
  have hj2 : (j (2 : Fin 3)).val < 16 := (j (2 : Fin 3)).isLt
  -- where the block's element (j 0, j 1, j 2) sits in the result array
  have emb0 : ((((cfgM m hO).win 2).blk t).view.emb j (0 : Fin 3)).val = (grid0.coords t 0).val := by
    show ((cfgM m hO).win 2).index t (0 : Fin 3) * 1 + 1 * (j (0 : Fin 3)).val = _
    rw [e2]; show (grid0.coords t 0).val * 1 + 1 * (j (0 : Fin 3)).val = _; omega
  have emb1 : ((((cfgM m hO).win 2).blk t).view.emb j (1 : Fin 3)).val = (grid0.coords t 1).val * 1024 + (j (1 : Fin 3)).val := by
    show ((cfgM m hO).win 2).index t (1 : Fin 3) * 1024 + 1 * (j (1 : Fin 3)).val = _
    rw [e2]; show (grid0.coords t 1).val * 1024 + 1 * (j (1 : Fin 3)).val = _; omega
  have emb2 : ((((cfgM m hO).win 2).blk t).view.emb j (2 : Fin 3)).val = (j (2 : Fin 3)).val := by
    show ((cfgM m hO).win 2).index t (2 : Fin 3) * 16 + 1 * (j (2 : Fin 3)).val = _
    rw [e2]; show 0 * 16 + 1 * (j (2 : Fin 3)).val = _; omega
  show blockFn (xblk m hO c t) (wblk m hO c t) (((cfgM m hO).win 2).xinj (grid0.coords t) j)
    = proj (xarr m c) (ids0 m) (warr m c) ((((cfgM m hO).win 2).blk t).view.emb j)
  unfold blockFn proj projAt
  refine Finset.sum_congr rfl fun k _ => ?_
  refine congr (congrArg HMul.hMul ?_) ?_
  · refine (xblk_apply m hO c t ⟨(j (1 : Fin 3)).val, hj1⟩ k).trans (congrArg (xarr m c) ?_)
    funext a
    refine Fin.ext ?_
    match a with
    | ⟨0, _⟩ => exact emb0.symm
    | ⟨1, _⟩ => exact emb1.symm
    | ⟨2, _⟩ => rfl
  · refine (wblk_apply m hO c t ⟨(j (2 : Fin 3)).val, hj2⟩ k).trans (congrArg (warr m c) ?_)
    have eb : ((((cfgM m hO).win 2).blk t).view.emb j (0 : Fin 3) : Fin 4) = bOf t := Fin.ext emb0
    funext a
    refine Fin.ext ?_
    match a with
    | ⟨0, _⟩ => exact congrArg (fun b : Fin 4 => (rowSel (ids0 m) b).val) eb.symm
    | ⟨1, _⟩ => exact emb2.symm
    | ⟨2, _⟩ => rfl

/-- The eight points' blocks tile the result: index `(b, row, o)` is element `(0, row mod 1024, o)` of the block of
    point `(b, row / 1024)`. -/
theorem cover (hO : Ok m) (c : Dev nD) (i : S4x2048x16.Idx) :
    ∃ t : Fin (cfgM m hO).N, ((cfgM m hO).win 2).flush t = true ∧ i ∈ (((cfgM m hO).win 2).blk t).view.set := by
  have hi0 : (i (0 : Fin 3)).val < 4 := (i (0 : Fin 3)).isLt
  have hi1 : (i (1 : Fin 3)).val < 2048 := (i (1 : Fin 3)).isLt
  have hi2 : (i (2 : Fin 3)).val < 16 := (i (2 : Fin 3)).isLt
  obtain ⟨t, ht0, ht1⟩ := idx_onto ⟨(i (0 : Fin 3)).val, hi0⟩ ⟨(i (1 : Fin 3)).val / 1024, by omega⟩
  have ht0' : (grid0.coords t 0).val = (i (0 : Fin 3)).val := ht0
  have ht1' : (grid0.coords t 1).val = (i (1 : Fin 3)).val / 1024 := ht1
  refine ⟨t, flush0_2 (adm m hO) t, ?_⟩
  have e2 : ((cfgM m hO).win 2).index t = ![(grid0.coords t 0).val, (grid0.coords t 1).val, 0] := idx_y t
  -- an element of the point's block with coordinates `(0, row mod 1024, o)` sits at `i`
  have key : ∀ y : (((cfgM m hO).win 2).xblock (grid0.coords t)).Idx,
      (y (0 : Fin 3)).val = 0 → (y (1 : Fin 3)).val = (i (1 : Fin 3)).val % 1024 → (y (2 : Fin 3)).val = (i (2 : Fin 3)).val →
      (((cfgM m hO).win 2).blk t).view.emb y = i := by
    intro y h0 h1 h2
    funext a
    refine Fin.ext ?_
    match a with
    | ⟨0, _⟩ =>
      show ((cfgM m hO).win 2).index t (0 : Fin 3) * 1 + 1 * (y (0 : Fin 3)).val = (i (0 : Fin 3)).val
      rw [e2]; show (grid0.coords t 0).val * 1 + 1 * (y (0 : Fin 3)).val = _; omega
    | ⟨1, _⟩ =>
      show ((cfgM m hO).win 2).index t (1 : Fin 3) * 1024 + 1 * (y (1 : Fin 3)).val = (i (1 : Fin 3)).val
      rw [e2]; show (grid0.coords t 1).val * 1024 + 1 * (y (1 : Fin 3)).val = _; omega
    | ⟨2, _⟩ =>
      show ((cfgM m hO).win 2).index t (2 : Fin 3) * 16 + 1 * (y (2 : Fin 3)).val = (i (2 : Fin 3)).val
      rw [e2]; show 0 * 16 + 1 * (y (2 : Fin 3)).val = _; omega
  have hm := (((cfgM m hO).win 2).blk t).view.emb_mem_set
    (ix3 (0 : Fin 1) (⟨(i (1 : Fin 3)).val % 1024, Nat.mod_lt _ (by decide)⟩ : Fin 1024) (⟨(i (2 : Fin 3)).val, hi2⟩ : Fin 16) : S1x1024x16.Idx)
  exact cast (congrArg (fun z => z ∈ (((cfgM m hO).win 2).blk t).view.set) (key _ rfl rfl rfl)) hm

/-- So the result array ends holding `result`. -/
theorem final (hO : Ok m) (c : Dev nD) : (dats m hO 0 c).arrAt 2 (cfgM m hO).N = result m c :=
  (dats m hO 0 c).arrAt_eq_of_cover 2 (result m c) (flushed_eq m hO c) (cover m hO c)

/-- THE RUN, READ: the result array at `proj x ids W` of the launch contents, the arguments unchanged. -/
theorem run : θ_run defs (onTc (τ := τ) (main (F := Ideal))) ⟨m, fun _ => 0, ρ⟩ fun r => ∀ c : Dev nD,
      r.2.mem ((c.tc : Thread nD τ).loc main_v1) = proj (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hO : Ok m := Table.ok m
  refine (θ_run defs _ _).mono (fun _ h c => ⟨?_, ?_, ?_, ?_⟩) (run_main m ρ hO)
  · refine ((h c).1 2).trans ((final m hO c).trans ?_)
    obtain rfl : c = 0 := Subsingleton.elim _ _
    show proj (V m 0 main_arg0) (ids0 m) (V m 0 main_arg2) = _
    rw [V_main_arg0, V_main_arg2]
  · exact ((h c).1 0).trans (((dats m hO 0 c).arrAt_in 0 rfl _).trans ((A_eq m hO c 0).trans (V_main_arg0 m c)))
  · exact ((h c).2 main_arg1 (by decide : main_arg1 ∈ Pipeline.restRefs sig spec0)).trans (V_main_arg1 m c)
  · exact ((h c).1 1).trans (((dats m hO 0 c).arrAt_in 1 rfl _).trans ((A_eq m hO c 1).trans (V_main_arg2 m c)))

end Cert.KernelIdeal.RowsValue

end
-- ==== Proof.RefRows.lean ====
/-
  The reference, read at an index.

  The reference takes `W[ids]` by a gather along the table's first axis and contracts the result with `x` over the 4096
  input features. The gather reads, for result index `(b, o, k)`, the table at `(r, o, k)` where `r` is the start index
  of batch element `b` read as a signed integer and clamped into `[0, 31]` (`gather_rows`): on the first axis the start
  index alone, on the other two the result's own coordinates. The start index is the id after indexing from the end,
  `if id < 0 then id + 32 else id`, which is the id itself when the id is not negative (`start_eq`). So under that
  hypothesis the reference's result at `(b, s, o)` is `∑ k, x (b, s, k) · W (rowNat (ids b), o, k)`: the function `proj`
  (`ref_eq`).
-/
import proofs.«417022_j83623013253475_3_alg».proof.Proof.Gen.ReferenceIdeal.Run
import proofs.«417022_j83623013253475_3_alg».proof.Proof.Gen.ReferenceIdeal.Read
import proofs.«417022_j83623013253475_3_alg».proof.Proof.Rows

noncomputable section

namespace Cert.ReferenceIdeal.RefRows

open Cert.ReferenceIdeal Cert.ReferenceIdeal.Gen Cert.ReferenceIdeal.Read
open Idealize.ShloMosaic Idealize.ShloMosaic.ValueIdx Cert.LoraRows

/-- The gather's dimension numbers: offset axes 1 and 2, the first operand axis collapsed and start-indexed, the index
    vector on axis 1 of the [4, 1] start indices, slices of one table row. -/
abbrev gd : GatherDims S32x16x4096 S4x1 S4x16x4096 := gather_S32x16x4096_S4x1_S4x16x4096_12_0_n_n_0_1_1164096

/-- Entry `b` of the [4, 1] column of start indices. -/
abbrev col (b : Fin 4) : S4x1.Idx := fun a => match a with
  | ⟨0, _⟩ => b
  | ⟨1, _⟩ => (0 : Fin 1)

/-! ## The operand index of the gather, axis by axis -/

/-- On the table's first axis the gather reads the clamped start index of the result's batch element. -/
theorem opIdx_0 (idx : IVec S4x1 32) (b : Fin 4) (o : Fin 16) (k : Fin 4096) :
    (gd.operandIdx (ix3 b o k) idx 0).val = min (idx (col b)).toInt.toNat 31 := by
  show gd.start (ix3 b o k) idx 0 + gd.batchCoord (ix3 b o k) 0 + gd.offCoord (ix3 b o k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ gd.startIndexMap from List.mem_singleton.mpr rfl)]
  have hsi : gd.siIdx (ix3 b o k) ⟨List.idxOf (0 : Fin 3) gd.startIndexMap,
      List.idxOf_lt_length_iff.2 (List.mem_singleton.mpr rfl)⟩ = col b := by
    funext c; refine Fin.ext ?_
    match c with
    | ⟨0, _⟩ => rfl
    | ⟨1, _⟩ => rfl
  rw [hsi]
  rfl

/-- On the second axis it reads the result's own second coordinate. -/
theorem opIdx_1 (idx : IVec S4x1 32) (b : Fin 4) (o : Fin 16) (k : Fin 4096) :
    (gd.operandIdx (ix3 b o k) idx 1).val = o.val := by
  show gd.start (ix3 b o k) idx 1 + gd.batchCoord (ix3 b o k) 1 + gd.offCoord (ix3 b o k) 1 = _
  rw [GatherDims.batchCoord_eq_zero _ _ _ List.not_mem_nil]
  unfold GatherDims.start
  rw [dif_neg (show (1 : Fin 3) ∉ gd.startIndexMap from by decide)]
  simp only [Nat.add_zero, Nat.zero_add]
  rfl

/-- On the third axis it reads the result's own third coordinate. -/
theorem opIdx_2 (idx : IVec S4x1 32) (b : Fin 4) (o : Fin 16) (k : Fin 4096) :
    (gd.operandIdx (ix3 b o k) idx 2).val = k.val := by
  show gd.start (ix3 b o k) idx 2 + gd.batchCoord (ix3 b o k) 2 + gd.offCoord (ix3 b o k) 2 = _
  rw [GatherDims.batchCoord_eq_zero _ _ _ List.not_mem_nil]
  unfold GatherDims.start
  rw [dif_neg (show (2 : Fin 3) ∉ gd.startIndexMap from by decide)]
  simp only [Nat.add_zero, Nat.zero_add]
  rfl

/-- THE GATHER AT AN INDEX: `W[ids]` at `(b, o, k)` is `W` at the clamped start index of `b`, `o`, `k`. -/
theorem gather_rows {α : Type} (W : S32x16x4096.Idx → α) (idx : IVec S4x1 32) (b : Fin 4) (o : Fin 16) (k : Fin 4096) :
    Host.gather gd W idx (ix3 b o k) = W (ix3 ⟨min (idx (col b)).toInt.toNat 31, by omega⟩ o k) := by
  unfold Host.gather
  congr 1
  funext a
  refine Fin.ext ?_
  match a with
  | ⟨0, _⟩ => exact opIdx_0 idx b o k
  | ⟨1, _⟩ => exact opIdx_1 idx b o k
  | ⟨2, _⟩ => exact opIdx_2 idx b o k

/-! ## The start index is the id -/

/-- The start index of batch element `b`: the id after indexing from the end, which a non-negative id passes
    unchanged. -/
theorem start_eq (ids : IVec S4 32) (b : Fin 4) (h : 0 ≤ (ids (ix1 b)).toInt) :
    val_main_v5 (F := Ideal) ids (col b) = ids (ix1 b) := by
  have e : idx_main_v5 (col b) = ix1 b := funext fun a => Fin.ext (by match a with | ⟨0, _⟩ => rfl)
  rw [val_main_v5_apply, e, val_main_v4_apply, val_main_v1_apply, val_main_v3_apply, val_main_v0_apply,
    val_main_c_apply, val_main_v2_apply, val_main_c_0_apply]
  exact wrap_of_nonneg h

/-! ## The reference computes `proj` -/

/-- Under non-negative ids the reference's result is `proj`: at `(b, s, o)` the sum over the input features of
    `x (b, s, k)` times the selected table slice's `(o, k)`. -/
theorem ref_eq (x : FVec Ideal S4x2048x4096 .f32) (ids : IVec S4 32) (W : FVec Ideal S32x16x4096 .f32)
    (hids : ∀ b : Fin 4, 0 ≤ (ids (ix1 b)).toInt) :
    val_main_v7 (F := Ideal) x ids W = proj x ids W := by
  funext i
  obtain ⟨b, s, o, rfl⟩ : ∃ (b : Fin 4) (s : Fin 2048) (o : Fin 16), i = ix3 b s o := ⟨i 0, i 1, i 2, eq_ix3 i⟩
  rw [val_main_v7_apply]
  show _ = ∑ k : Fin 4096, x (ix3 b s k) * W (ix3 (rowSel ids b) o k)
  refine Finset.sum_congr rfl fun k _ => ?_
  have el : lidx_main_v7 (ix3 b s o) k = ix3 b s k := funext fun a => Fin.ext (by
    match a with
    | ⟨0, _⟩ => rfl
    | ⟨1, _⟩ => rfl
    | ⟨2, _⟩ => rfl)
  have er : ridx_main_v7 (ix3 b s o) k = ix3 b o k := funext fun a => Fin.ext (by
    match a with
    | ⟨0, _⟩ => rfl
    | ⟨1, _⟩ => rfl
    | ⟨2, _⟩ => rfl)
  rw [el, er]
  congr 1
  unfold val_main_v6
  rw [gather_rows]
  congr 1
  funext a
  refine Fin.ext ?_
  match a with
  | ⟨0, _⟩ =>
    show min (val_main_v5 (F := Ideal) ids (col b)).toInt.toNat 31 = rowNat (ids (ix1 b))
    rw [start_eq ids b (hids b)]
    rfl
  | ⟨1, _⟩ => rfl
  | ⟨2, _⟩ => rfl

end Cert.ReferenceIdeal.RefRows

end
-- ==== Proof.lean ====
/-
  A batched low-rank projection with per-sample adapter rows: `y[b] = x[b] · W[r(b)]ᵀ`, where `x : [4, 2048, 4096]`,
  `W : [32, 16, 4096]` is a table of 32 adapter matrices and `r(b)` is the table row the integer id `ids[b]` selects.

  The kernel clamps each id into `[0, 31]` before using it as a block index of the table; the reference indexes the
  table the way array indexing does — a negative id counts from the end, `id + 32`, and the gather then clamps.
  On an id in `[-32, -1]` the two read different rows (row 0 against row `id + 32`), so the claim is stated under the
  added precondition that no id is negative. There both programs read row `min id 31`, and both compute, at
  `(b, s, o)`, the sum over the 4096 input features `∑ k, x (b, s, k) · W (r(b), o, k)`: the kernel tile by tile (eight
  grid points of 1024 rows, each in two products of 512 rows into a zero accumulator, a change of float format being
  the identity on the extended reals), the reference in one batched contraction. The same sum in the same order:
  no law of the extended reals is used beyond `0 + a = a`, and the finiteness of the inputs is never opened.

  The kernel's frames hold for every launch memory: the clamp alone keeps each block of the table inside it.
-/
import proofs.«417022_j83623013253475_3_alg».proof.Defs
import proofs.«417022_j83623013253475_3_alg».proof.Proof.Gen.Kernel
import proofs.«417022_j83623013253475_3_alg».proof.Proof.Gen.Kernel.Skeleton
import proofs.«417022_j83623013253475_3_alg».proof.Proof.Gen.Kernel.Loops
import proofs.«417022_j83623013253475_3_alg».proof.Proof.Gen.Kernel.Launch
import proofs.«417022_j83623013253475_3_alg».proof.Proof.Gen.Kernel.Points
import proofs.«417022_j83623013253475_3_alg».proof.Proof.Gen.Kernel.Frame
import proofs.«417022_j83623013253475_3_alg».proof.Proof.Gen.KernelIdeal
import proofs.«417022_j83623013253475_3_alg».proof.Proof.Gen.KernelIdeal.Skeleton
import proofs.«417022_j83623013253475_3_alg».proof.Proof.Gen.KernelIdeal.Loops
import proofs.«417022_j83623013253475_3_alg».proof.Proof.Gen.KernelIdeal.Launch
import proofs.«417022_j83623013253475_3_alg».proof.Proof.Gen.KernelIdeal.Points
import proofs.«417022_j83623013253475_3_alg».proof.Proof.Gen.KernelIdeal.Frame
import proofs.«417022_j83623013253475_3_alg».proof.Proof.Gen.ReferenceIdeal
import proofs.«417022_j83623013253475_3_alg».proof.Proof.Gen.ReferenceIdeal.Run
import proofs.«417022_j83623013253475_3_alg».proof.Proof.Gen.ReferenceIdeal.Read
import proofs.«417022_j83623013253475_3_alg».proof.Proof.Gen.Pre_finite_inputs
import proofs.«417022_j83623013253475_3_alg».proof.Proof.Rows
import proofs.«417022_j83623013253475_3_alg».proof.Proof.PreIds
import proofs.«417022_j83623013253475_3_alg».proof.Proof.KernelTable
import proofs.«417022_j83623013253475_3_alg».proof.Proof.KernelIdealTable
import proofs.«417022_j83623013253475_3_alg».proof.Proof.KernelIdealRows
import proofs.«417022_j83623013253475_3_alg».proof.Proof.RefRows
import Idealize.ShloMosaic.Adequacy
import Idealize.ShloMosaic.Init

noncomputable section

namespace Cert.Proof

open Idealize.ShloMosaic Idealize.SL.Sem Cert.LoraRows

/-- The word-level kernel runs and leaves its arguments as they were: every block of the table the clamped ids name
    lies inside it. -/
theorem frame_k : Cert.frame_Kernel := fun m ρ _ => Cert.Kernel.Gen.frame m ρ (Cert.Kernel.Table.ok m)

/-- The same of the kernel read over the extended reals. -/
theorem frame_ki : Cert.frame_KernelIdeal := fun m ρ _ => Cert.KernelIdeal.Gen.frame m ρ (Cert.KernelIdeal.Table.ok m)

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the result array at `proj x ids W`: the kernel for every ids (its clamp selects row
    `rowNat (ids b)`), the reference because no id is negative (its indexing from the end leaves the id alone and its
    gather's clamp selects the same row). -/
theorem algebraic : Cert.algebraic_KernelIdeal_ReferenceIdeal := by
  intro m ρ m' ρ' hpre hagree
  refine ⟨fun c => proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v7_eq]
  exact Cert.ReferenceIdeal.RefRows.ref_eq _ _ _ fun b => Cert.Pre_finite_inputs.Ids.ids_nonneg _ _ _ (hpre c) b

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
